-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x256x1024 : Shape := ⟨3, ![1, 256, 1024]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel

variable [Facts]

def fn {F : FTy → Type} [FloatOps F] (main_arg0 : FVec F S1x256x1024 .f32) (main_arg1 : FVec F S1x256x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1x256x1024 .f32 := Host.absf main_arg1
  let main_cst_0 : FVec F S_ .f32 := constant S_ .f32 0x7F800000#32
  let main_v5 : FVec F S1x256x1024 .f32 := broadcastInDim S1x256x1024 ![] bcast_S_S1x256x1024 main_cst_0
  let main_v6 : IVec S1x256x1024 1 := cmpf .olt main_v4 main_v5
  let main_c_1 : IVec S_ 1 := constantI S_ 1 1#1
  let main_v7 : IVec S_ 1 := (fun x v => Host.reduce IntOp.andi x v reducesTo_S1x256x1024_S_d0_1_2 h_S_) main_v6 main_c_1
  let main_v8 : IVec S_ 1 := andi main_v3 main_v7
  main_v8
-- ==== Kernel.lean ====
abbrev S1x256x1024 : Shape := ⟨3, ![1, 256, 1024]⟩
abbrev S256x1024 : Shape := ⟨2, ![256, 1024]⟩
abbrev S1024x256 : Shape := ⟨2, ![1024, 256]⟩
abbrev S1024x1024 : Shape := ⟨2, ![1024, 1024]⟩
abbrev S128x128 : Shape := ⟨2, ![128, 128]⟩
abbrev S128x1x128 : Shape := ⟨3, ![128, 1, 128]⟩
abbrev S1x128x128 : Shape := ⟨3, ![1, 128, 128]⟩
abbrev S128x128x128 : Shape := ⟨3, ![128, 128, 128]⟩
abbrev S1x1 : Shape := ⟨2, ![1, 1]⟩
abbrev S1024 : Shape := ⟨1, ![1024]⟩
abbrev S1024x1 : Shape := ⟨2, ![1024, 1]⟩
abbrev S1x1024 : Shape := ⟨2, ![1, 1024]⟩
abbrev S1 : Shape := ⟨1, ![1]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S256x1024, .f32⟩
  | .hbm, ⟨3, _⟩ => ⟨S1024x256, .f32⟩
  | .hbm, ⟨4, _⟩ => ⟨S256x1024, .f32⟩
  | .hbm, ⟨5, _⟩ => ⟨S1024x256, .f32⟩
  | .hbm, ⟨6, _⟩ => ⟨S1024x1024, .f32⟩
  | .hbm, ⟨7, _⟩ => ⟨S1x1, .f32⟩
  | .hbm, ⟨8, _⟩ => ⟨S_, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S1024x1024, .f32⟩
  | .local _ .vmem, ⟨7, _⟩ => ⟨S1x1, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7

abbrev nD : Nat := 1
abbrev τ : Topo := Topo.v7x

variable {F : FTy → Type} [FloatOps F]

abbrev grid0 : Pipeline.Grid := ⟨3, ![8, 8, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

class Facts₀ : Prop where
  shapeCasts_S1x256x1024_S256x1024 : S1x256x1024.ShapeCasts S256x1024
  transposes_S256x1024_S1024x256_1_0 : S256x1024.Transposes [1, 0] S1024x256
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  reduces_S128x128x128_S128x128 : S128x128x128.Reduces [2] S128x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  reduces_S1024x1024_S1024_2 : S1024x1024.Reduces [0] S1024
  shapeCasts_S1024_S1x1024 : S1024.ShapeCasts S1x1024
  broadcasts_S1x1024_S1024x1024 : S1x1024.Broadcasts S1024x1024
  reduces_S1x1024_S1 : S1x1024.Reduces [1] S1
  shapeCasts_S1_S1x1 : S1.ShapeCasts S1x1
  inpos_S1x1_p0_0 : ∀ a, (![0, 0] : Fin 2 → Nat) a < S1x1.size a
  inb_S1x1_S1x1_0_0 : ∀ a, (![0, 0] : Fin 2 → Nat) a + S1x1.size a ≤ S1x1.size a
  h_S1x1 : 0 < S1x1.numel
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S1024x256.size a
  hwx0_0 : ∀ i : grid0.Coords, EltTy.bits .f32 = 32 ∨ (Rect.block (s := S1024x256) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S1024x256.size a
  hwx0_1 : ∀ i : grid0.Coords, EltTy.bits .f32 = 32 ∨ (Rect.block (s := S1024x256) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S1024x1024.size a
  hwx0_2 : ∀ i : grid0.Coords, EltTy.bits .f32 = 32 ∨ (Rect.block (s := S1024x1024) S128x128.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S1024x1024.size a
  hwx1_0 : ∀ i : grid1.Coords, EltTy.bits .f32 = 32 ∨ (Rect.block (s := S1024x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)

variable [Facts₀]

abbrev win0_0 : Pipeline.Window sig grid0 :=
  Pipeline.Window.ofSpec (Memref.whole main_v1) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S1024x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x1.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S1x256x1024 : Shape := ⟨3, ![1, 256, 1024]⟩
abbrev S256x1024 : Shape := ⟨2, ![256, 1024]⟩
abbrev S1024x256 : Shape := ⟨2, ![1024, 256]⟩
abbrev S1024x1x256 : Shape := ⟨3, ![1024, 1, 256]⟩
abbrev S1x1024x256 : Shape := ⟨3, ![1, 1024, 256]⟩
abbrev S1024x1024x256 : Shape := ⟨3, ![1024, 1024, 256]⟩
abbrev S_ : Shape := ⟨0, ![]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S256x1024, .f32⟩
  | .hbm, ⟨3, _⟩ => ⟨S1024x256, .f32⟩
  | .hbm, ⟨4, _⟩ => ⟨S256x1024, .f32⟩
  | .hbm, ⟨5, _⟩ => ⟨S1024x256, .f32⟩
  | .hbm, ⟨6, _⟩ => ⟨S1024x1x256, .f32⟩
  | .hbm, ⟨7, _⟩ => ⟨S1x1024x256, .f32⟩
  | .hbm, ⟨8, _⟩ => ⟨S1024x1024x256, .f32⟩
  | .hbm, ⟨9, _⟩ => ⟨S1024x1024x256, .f32⟩
  | .hbm, ⟨10, _⟩ => ⟨S1024x1024x256, .f32⟩
  | .hbm, ⟨11, _⟩ => ⟨S1024x1024x256, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S1024x1, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024, .f32⟩
  | .hbm, ⟨26, _⟩ => ⟨S1024x1, .f32⟩
  | .hbm, ⟨27, _⟩ => ⟨S1024x1024, .f32⟩
  | .hbm, ⟨28, _⟩ => ⟨S1024x1024, .f32⟩
  | .hbm, ⟨29, _⟩ => ⟨S_, .f32⟩
  | .hbm, ⟨30, _⟩ => ⟨S1024, .f32⟩
  | .hbm, ⟨31, _⟩ => ⟨S_, .f32⟩
  | .hbm, ⟨32, _⟩ => ⟨S1024, .f32⟩
  | .hbm, ⟨33, _⟩ => ⟨S1024, .f32⟩
  | .hbm, ⟨34, _⟩ => ⟨S1x1024, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S1024x1024, .f32⟩
  | .hbm, ⟨42, _⟩ => ⟨S1024x1024, .f32⟩
  | .hbm, ⟨43, _⟩ => ⟨S1024x1024, .f32⟩
  | .hbm, ⟨44, _⟩ => ⟨S1024x1024, .f32⟩
  | .hbm, ⟨45, _⟩ => ⟨S1024x1024, .f32⟩
  | .hbm, ⟨46, _⟩ => ⟨S1024x1024, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_5 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_6 : Ref sig .tc := ⟨.hbm, 47, rfl⟩
abbrev main_v38 : Ref sig .tc := ⟨.hbm, 48, rfl⟩
abbrev main_cst_7 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]

class Facts₀ : Prop where
  shapeCasts_S1x256x1024_S256x1024 : S1x256x1024.ShapeCasts S256x1024
  transposes_S256x1024_S1024x256_1_0 : S256x1024.Transposes [1, 0] S1024x256
  bcast_S1024x256_S1024x1x256_0_2 : S1024x256.BroadcastsInDim S1024x1x256 (![0, 2] : Fin 2 → Fin S1024x1x256.rank)
  bcast_S1024x256_S1x1024x256_1_2 : S1024x256.BroadcastsInDim S1x1024x256 (![1, 2] : Fin 2 → Fin S1x1024x256.rank)
  bcast_S1024x1x256_S1024x1024x256_0_1_2 : S1024x1x256.BroadcastsInDim S1024x1024x256 (![0, 1, 2] : Fin 3 → Fin S1024x1024x256.rank)
  bcast_S1x1024x256_S1024x1024x256_0_1_2 : S1x1024x256.BroadcastsInDim S1024x1024x256 (![0, 1, 2] : Fin 3 → Fin S1024x1024x256.rank)
  reducesTo_S1024x1024x256_S1024x1024_d2 : S1024x1024x256.ReducesTo [2] S1024x1024
  h_S_ : 0 < S_.numel
  reducesTo_S1024x1024_S1024_d1 : S1024x1024.ReducesTo [1] S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  reducesTo_S1024x1024_S1024_d0 : S1024x1024.ReducesTo [0] S1024
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  reducesTo_S1024x1024_S_d0_1 : S1024x1024.ReducesTo [0, 1] S_

variable [Facts₀]

class Facts : Prop extends Facts₀ where

variable [Facts]
-- ==== Proof.CombValue.lean ====
/-
  What the second pallas_call leaves in its 1 × 1 output array.

  Its grid has one point; its input window's block is the whole 1024 × 1024 matrix and its output window's
  block the whole 1 × 1 array. So the output array ends at the body's one payload of the whole input matrix
  as the region finds it.
-/
import proofs.«175988_j8830452760775_1_alg».proof.Proof.Gen.KernelIdeal.Frame
import Idealize.ShloMosaic.Lib.Pipeline.Value

noncomputable section

namespace Cert.KernelIdeal.CombValue

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Both windows sit at block index (0, 0) at the one grid point. -/
theorem idx_zero : ∀ t : Fin cfg1.N, win1_0.index t (0 : Fin 2) = 0 ∧ win1_0.index t (1 : Fin 2) = 0
    ∧ win1_1.index t (0 : Fin 2) = 0 ∧ win1_1.index t (1 : Fin 2) = 0 :=
  (by decide +kernel : ∀ t : Fin grid1.N, _)

/-- The input window's block at the one point is the whole matrix. -/
theorem iblk_whole (c : Dev nD) (t : Fin cfg1.N) : (iblk1 V c 0 t : Vec F S1024x1024 .f32) = V c main_v4 := by
  obtain ⟨e0, e1, -, -⟩ := idx_zero t
  funext j
  unfold iblk1
  rw [View.read_apply]
  show V c main_v4 _ = V c main_v4 j
  congr 1
  funext a
  apply Fin.ext
  match a with
  | ⟨0, _⟩ => show win1_0.index t (0 : Fin 2) * 1024 + 1 * (j 0).val = (j 0).val; rw [e0]; omega
  | ⟨1, _⟩ => show win1_0.index t (1 : Fin 2) * 1024 + 1 * (j 1).val = (j 1).val; rw [e1]; omega

/-- What the one point writes back is the body's payload of the whole matrix, as the whole output block. -/
theorem flushed_eq (c : Dev nD) (t : Fin cfg1.N) :
    (dat1 V c).flushed 1 t = ((cfg1.win 1).blk t).view.read (Elt F) (k1_pay1 (V c main_v4) : Buf (Elt F) ((c : Thread nD τ).loc main_v5)) := by
  obtain ⟨-, -, e2, e3⟩ := idx_zero t
  show (cfg1.win 1).cut (grid1.coords t) ((dat1 V c).after 1 t) = _
  rw [after1_1]
  unfold out1_1
  rw [View.canon_unit_zero hz]
  simp only [View.ld_unit_zero (S := S1024x1024) hz]
  rw [iblk_whole]
  have hz' : (fun a => win1_1.index t a * main_v5.ty.shape.size a) = fun _ => 0 :=
    funext fun a => by
      match a with
      | ⟨0, _⟩ => show win1_1.index t (0 : Fin 2) * 1 = 0; rw [e2]
      | ⟨1, _⟩ => show win1_1.index t (1 : Fin 2) * 1 = 0; rw [e3]
  exact (Memref.read_access_unit_zero (Elt F) main_v5 hz' (fun a => by rw [congrFun hz' a]; simp) (k1_pay1 (V c main_v4))).symm

/-- So the output array ends holding that payload: the one block covers its one index. -/
theorem region1_value (c : Dev nD) :
    (dat1 V c).arrAt 1 cfg1.N = (k1_pay1 (V c main_v4) : Buf (Elt F) ((c : Thread nD τ).loc main_v5)) :=
  (dat1 V c).arrAt_eq_of_cover 1 _ (fun t _ => flushed_eq V c t) fun i =>
    ⟨t1_0, flush1_1 t1_0, by
      obtain ⟨-, -, e2, e3⟩ := idx_zero t1_0
      show i ∈ ((View.whole main_v5).slice (win1_1.rect t1_0)).set
      rw [View.set_slice_whole, Rect.mem_set_unit]
      intro a
      have h0 : (i 0 : Nat) < 1 := (i 0).isLt
      have h1 : (i 1 : Nat) < 1 := (i 1).isLt
      match a with
      | ⟨0, _⟩ => show win1_1.index t1_0 (0 : Fin 2) * 1 ≤ (i 0 : Nat) ∧ (i 0 : Nat) < win1_1.index t1_0 (0 : Fin 2) * 1 + 1
                  rw [e2]; omega
      | ⟨1, _⟩ => show win1_1.index t1_0 (1 : Fin 2) * 1 ≤ (i 1 : Nat) ∧ (i 1 : Nat) < win1_1.index t1_0 (1 : Fin 2) * 1 + 1
                  rw [e3]; omega⟩

end Cert.KernelIdeal.CombValue

end
-- ==== Proof.Spec.lean ====
/-
  The mathematics both programs compute, stated once.

  Both programs first form the matrix of negated L1 distances between the rows of two 1024 × 256 arrays,
  s(i, j) = -∑ₖ |x(i, k) - y(j, k)|, and then reduce that matrix to one number: with a = softmax of s along
  its rows, b = softmax of s along its columns and u = a + b - a·b, the number is (∑ u·s) / (∑ u).

  `tail` is the second half as one function of the matrix, written with the host's operations. `sK` is the
  first half in the order the tiled kernel accumulates it: the 256 coordinates are summed in two halves of
  128, each half negated by subtracting it from zero, the halves added onto a zero start.
-/
import proofs.«175988_j8830452760775_1_alg».proof.Proof.Gen.ReferenceIdeal
import Idealize.ShloMosaic.PureOps.Ideal
import Idealize.ShloMosaic.Lib.ValueIdx

noncomputable section

namespace Cert.Spec

open Idealize.ShloMosaic Idealize.ShloMosaic.ValueIdx Cert.ReferenceIdeal Cert.ReferenceIdeal.Gen

variable {F : FTy → Type} [FloatOps F]

/-- A vector of 1024 numbers repeated along the columns: entry (i, j) is the i-th number. -/
def alongRows (r : FVec F S1024 .f32) : FVec F S1024x1024 .f32 :=
  broadcastInDim S1024x1024 ![0, 1] bcast_S1024x1_S1024x1024_0_1 (broadcastInDim S1024x1 ![0] bcast_S1024_S1024x1_0 r)

/-- A vector of 1024 numbers repeated along the rows: entry (i, j) is the j-th number. -/
def alongCols (r : FVec F S1024 .f32) : FVec F S1024x1024 .f32 :=
  broadcastInDim S1024x1024 ![0, 1] bcast_S1x1024_S1024x1024_0_1 (broadcastInDim S1x1024 ![1] bcast_S1024_S1x1024_1 r)

/-- The maximum of each row (joined with -∞ once more, as jnp's softmax does). -/
def rowMax (s : FVec F S1024x1024 .f32) : FVec F S1024 .f32 :=
  maximumf (broadcastInDim S1024 ![] bcast_S_S1024 (constant S_ .f32 0xFF800000#32))
    (Host.reduce FloatOps.maximumf s (constant S_ .f32 0xFF800000#32) reducesTo_S1024x1024_S1024_d1 h_S_)

/-- The maximum of each column. -/
def colMax (s : FVec F S1024x1024 .f32) : FVec F S1024 .f32 :=
  maximumf (broadcastInDim S1024 ![] bcast_S_S1024 (constant S_ .f32 0xFF800000#32))
    (Host.reduce FloatOps.maximumf s (constant S_ .f32 0xFF800000#32) reducesTo_S1024x1024_S1024_d0 h_S_)

/-- exp (s - row maximum). -/
def rowExp (s : FVec F S1024x1024 .f32) : FVec F S1024x1024 .f32 := Host.exp (subf s (alongRows (rowMax s)))

/-- exp (s - column maximum). -/
def colExp (s : FVec F S1024x1024 .f32) : FVec F S1024x1024 .f32 := Host.exp (subf s (alongCols (colMax s)))

/-- The softmax of s along each row. -/
def rowSoft (s : FVec F S1024x1024 .f32) : FVec F S1024x1024 .f32 :=
  Host.divf (rowExp s) (alongRows (Host.reduceAdd (rowExp s) (constant S_ .f32 0x00000000#32) reducesTo_S1024x1024_S1024_d1 h_S_))

/-- The softmax of s along each column. -/
def colSoft (s : FVec F S1024x1024 .f32) : FVec F S1024x1024 .f32 :=
  Host.divf (colExp s) (alongCols (Host.reduceAdd (colExp s) (constant S_ .f32 0x00000000#32) reducesTo_S1024x1024_S1024_d0 h_S_))

/-- The soft union a + b - a·b of the two softmaxes. -/
def union (s : FVec F S1024x1024 .f32) : FVec F S1024x1024 .f32 :=
  subf (addf (rowSoft s) (colSoft s)) (mulf (rowSoft s) (colSoft s))

/-- (∑ u·s) / (∑ u): the number both programs return, as a function of the distance matrix. -/
def tail (s : FVec F S1024x1024 .f32) : FVec F S_ .f32 :=
  Host.divf (Host.reduceAdd (mulf (union s) s) (constant S_ .f32 0x00000000#32) reducesTo_S1024x1024_S_d0_1 h_S_)
    (Host.reduceAdd (union s) (constant S_ .f32 0x00000000#32) reducesTo_S1024x1024_S_d0_1 h_S_)

/-- Column `d·128 + k` of a 256-wide row: the k-th coordinate of half d. -/
abbrev col (d : Fin 2) (k : Fin 128) : Fin 256 := ⟨d.val * 128 + k.val, by have := d.isLt; have := k.isLt; omega⟩

/-- One half of the L1 distance between row i of x and row j of y: the sum over the 128 coordinates of half d. -/
def half (x y : FVec Ideal S1024x256 .f32) (d : Fin 2) (i j : Fin 1024) : EReal :=
  ∑ k : Fin 128, FloatOps.absf (F := Ideal) (φ := .f32) (x (ix2 i (col d k)) - y (ix2 j (col d k)))

/-- The negated L1 distance as the tiled kernel accumulates it: zero, plus (zero minus the first half), plus
    (zero minus the second half). -/
def sKat (x y : FVec Ideal S1024x256 .f32) (i j : Fin 1024) : EReal :=
  ((0 : EReal) + ((0 : EReal) - half x y 0 i j)) + ((0 : EReal) - half x y 1 i j)

/-- The same as a matrix. -/
def sK (x y : FVec Ideal S1024x256 .f32) : FVec Ideal S1024x1024 .f32 := fun i => sKat x y (i 0) (i 1)

end Cert.Spec

end
-- ==== Proof.DistValue.lean ====
/-
  The value of the first region: the tiled L1-distance kernel, read over the extended reals.

  The grid is 8 × 8 × 2: point t is (t / 16, t / 2 % 8, t % 2). At a point (ni, mi, di) the body holds block (ni, di) of
  the first 1024 × 256 array and block (mi, di) of the second, and updates the 128 × 128 result block (ni, mi): at di = 0
  it stores the zero block first; at either di it adds, at (p, q), zero minus the sum over the 128 coordinates k of this
  half of |x(p, k) - y(q, k)|. The result block is written back after the points with di = 1 only. So every entry
  (i, j) of the result array ends at 0 + (0 - first half's sum) + (0 - second half's sum) of rows i and j: the
  specification's matrix of negated distances, accumulated in the kernel's order.

  The steps: what each of the two control cases leaves in the result's staging block, as the body's arithmetic applied to
  the blocks it loads; that arithmetic read at an index (the two layout views of the operands, the sum along the last axis);
  where each point's blocks sit in the arrays (the index maps in closed form, decided once over the grid); the staging
  block after an odd point, from that point and the even point before it (which resets, so nothing earlier is read);
  and the blocks written back after the odd points cover the result array.
-/
import proofs.«175988_j8830452760775_1_alg».proof.Proof.Gen.KernelIdeal.Frame
import proofs.«175988_j8830452760775_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.DistValue

open Cert.KernelIdeal Cert.KernelIdeal.Gen

variable {F : FTy → Type} [FloatOps F]

theorem hz : (![0, 0] : Fin 2 → Nat) = fun _ => 0 := funext fun a => by fin_cases a <;> rfl

/-- At a point of the second half (the reduction coordinate is 1) the body's one store covers the output block with
    the update of what the block held: the block's old contents plus (zero minus the row sums of this half). -/
theorem out_B (c : Dev nD) (i : grid0.Coords) (a3 : Memref sig .tc .vmem S128x128 .f32) (h3 : a3.IsWhole)
    (a4 : Memref sig .tc .vmem S128x128 .f32) (h4 : a4.IsWhole) (a5 : Memref sig .tc .vmem S128x128 .f32) (h5 : a5.IsWhole)
    (hc : ¬cond0_0 i) (x0 x1 xo : Vec F S128x128 .f32) :
    out0_B_2 c i a3 h3 a4 h4 a5 h5 hc x0 x1 xo = k0_pay2 x0 x1 xo := by
  unfold out0_B_2
  rw [View.read_writes_eq_canon _ _ _ (cover0_B_2 c i a3 h3 a4 h4 a5 h5 hc x0 x1 xo)]
  unfold kernelRun0_B
  dsimp only
  sl_unfold_words
  rw [View.canon_unit_zero hz]
  simp only [View.readAt_eq_ld, h3.read_unread, h4.read_unread, h5.read_unread, View.ld_unit_zero (S := S128x128) hz]

/-- At a point of the first half (the reduction coordinate is 0) the body first stores the zero block, reads it back,
    and then stores the update of it: the later store covers the block, and what it read back is the zero block. -/
theorem out_A (c : Dev nD) (i : grid0.Coords) (a3 : Memref sig .tc .vmem S128x128 .f32) (h3 : a3.IsWhole)
    (a4 : Memref sig .tc .vmem S128x128 .f32) (h4 : a4.IsWhole) (a5 : Memref sig .tc .vmem S128x128 .f32) (h5 : a5.IsWhole)
    (hc : cond0_0 i) (x0 x1 : Vec F S128x128 .f32) :
    out0_A_2 c i a3 h3 a4 h4 a5 h5 hc x0 x1 = k0_pay2 x0 x1 (k0_pay1 (F := F)) := by
  unfold out0_A_2
  rw [View.read_writes_eq_canon _ _ _ (cover0_A_2 c i a3 h3 a4 h4 a5 h5 hc x0 x1)]
  unfold kernelRun0_A
  dsimp only
  sl_unfold_words
  rw [View.canon_cons_unit_zero (S := S128x128) hz, View.readCov_unit_zero (S := S128x128) _ hz]
  simp only [View.readAt_eq_ld, h3.read_unread, h4.read_unread, View.ld_unit_zero (S := S128x128) hz]

/-! ## The body's arithmetic read at an index, over the extended reals -/

/-- The first operand's block, viewed [128, 1, 128] and repeated along the middle axis, reads at (p, q, k) the block at (p, k). -/
theorem lhs_apply (x0 : FVec Ideal S128x128 .f32) (p q k : Fin 128) :
    broadcastTo S128x128x128 (shapeCast S128x1x128 (shapeCast S128x128 x0 shapeCasts_S128x128_S128x128) shapeCasts_S128x128_S128x1x128)
      broadcasts_S128x1x128_S128x128x128 (ix3 p q k) = x0 (ix2 p k) := by
  refine (broadcastTo_apply _ broadcasts_S128x1x128_S128x128x128 (ix3 p q k) (ix3 p (0 : Fin 1) k) fun a => ?_).trans ?_
  · match a with
    | ⟨0, _⟩ => rfl
    | ⟨1, _⟩ => rfl
    | ⟨2, _⟩ => rfl
  refine (shapeCast_apply _ shapeCasts_S128x128_S128x1x128 (ix3 p (0 : Fin 1) k) (ix2 p k) ?_).trans ?_
  · rw [Shape.rowMajor_val_two, Shape.rowMajor_val_three]
    show p.val * 128 + k.val = (p.val * 1 + 0) * 128 + k.val
    omega
  exact congrFun (shapeCast_self x0 shapeCasts_S128x128_S128x128) (ix2 p k)

/-- The second operand's block, viewed [1, 128, 128] and repeated along the leading axis, reads at (p, q, k) the block at (q, k). -/
theorem rhs_apply (x1 : FVec Ideal S128x128 .f32) (p q k : Fin 128) :
    broadcastTo S128x128x128 (shapeCast S1x128x128 (shapeCast S128x128 x1 shapeCasts_S128x128_S128x128) shapeCasts_S128x128_S1x128x128)
      broadcasts_S1x128x128_S128x128x128 (ix3 p q k) = x1 (ix2 q k) := by
  refine (broadcastTo_apply _ broadcasts_S1x128x128_S128x128x128 (ix3 p q k) (ix3 (0 : Fin 1) q k) fun a => ?_).trans ?_
  · match a with
    | ⟨0, _⟩ => rfl
    | ⟨1, _⟩ => rfl
    | ⟨2, _⟩ => rfl
  refine (shapeCast_ab_1ab_apply _ shapeCasts_S128x128_S1x128x128 (0 : Fin 1) q k).trans ?_
  exact congrFun (shapeCast_self x1 shapeCasts_S128x128_S128x128) (ix2 q k)

/-- The sum along the last axis of a [128, 128, 128] vector, at (p, q): the sum over k of the entries (p, q, k). -/
theorem lastAxisSum_apply (v : FVec Ideal S128x128x128 .f32) (hφ : FKind.Formats .f32)
    (hacc : (0x00000000#32 : BitVec 32) = FKind.add.neutral .f32 hφ) (p q : Fin 128) :
    multiReduction .add [2] S128x128 v 0x00000000#32 reduces_S128x128x128_S128x128 hφ hacc (ix2 p q)
      = ∑ k : Fin 128, v (ix3 p q k) := by
  refine (Ideal.multiReduction_add_single v 0x00000000#32 reduces_S128x128x128_S128x128 hφ hacc (ix2 p q)).trans ?_
  refine Finset.sum_congr rfl fun k _ => congrArg v ?_
  funext a
  match a with
  | ⟨0, _⟩ => rfl
  | ⟨1, _⟩ => rfl
  | ⟨2, _⟩ => rfl

/-- The update the body stores, at (p, q): what the block held there plus (zero minus the sum over the 128 coordinates of
    this half of |x(p, k) - y(q, k)|). -/
theorem pay2_apply (x0 x1 acc : FVec Ideal S128x128 .f32) (p q : Fin 128) :
    k0_pay2 (F := Ideal) x0 x1 acc (ix2 p q)
      = acc (ix2 p q) + ((0 : EReal) - ∑ k : Fin 128, FloatOps.absf (F := Ideal) (φ := .f32) (x0 (ix2 p k) - x1 (ix2 q k))) := by
  unfold k0_pay2
  dsimp only
  refine congrArg₂ (fun a b : EReal => a + b) (congrFun (shapeCast_self acc shapeCasts_S128x128_S128x128) (ix2 p q)) ?_
  refine congrArg₂ (fun a b : EReal => a - b) Ideal.ofBits_zero_f32 ?_
  refine (lastAxisSum_apply _ _ _ p q).trans ?_
  refine Finset.sum_congr rfl fun k _ => ?_
  exact congrArg₂ (fun a b : EReal => FloatOps.absf (F := Ideal) (φ := .f32) (a - b)) (lhs_apply x0 p q k) (rhs_apply x1 p q k)

/-- The zero block the reset stores. -/
theorem pay1_apply (p q : Fin 128) : k0_pay1 (F := Ideal) (ix2 p q) = (0 : EReal) := Ideal.ofBits_zero_f32

/-! ## The grid: where each point's blocks sit -/

/-- The printed index maps in closed form, decided once over the grid: point t is (t / 16, t / 2 % 8, t % 2); the first
    operand's block is (t / 16, t % 2), the second's (t / 2 % 8, t % 2), the result's (t / 16, t / 2 % 8). -/
theorem idx_facts : ∀ t : Fin cfg0.N, win0_0.index t (0 : Fin 2) = t.val / 16 ∧ win0_0.index t (1 : Fin 2) = t.val % 2
    ∧ win0_1.index t (0 : Fin 2) = t.val / 2 % 8 ∧ win0_1.index t (1 : Fin 2) = t.val % 2
    ∧ win0_2.index t (0 : Fin 2) = t.val / 16 ∧ win0_2.index t (1 : Fin 2) = t.val / 2 % 8 :=
  (by decide +kernel : ∀ t : Fin grid0.N, _)

section Region
variable (V : (c : Dev nD) → (b : Ref sig .tc) → Buf (Elt Ideal) ((c : Thread nD τ).loc b))

/-- The two operand arrays as the region finds them, and each point's blocks of them, at their literal types. -/
abbrev xarr (c : Dev nD) : FVec Ideal S1024x256 .f32 := V c main_v1
abbrev yarr (c : Dev nD) : FVec Ideal S1024x256 .f32 := V c main_v3
abbrev xblk (c : Dev nD) (t : Fin cfg0.N) : FVec Ideal S128x128 .f32 := iblk0 V c 0 t
abbrev yblk (c : Dev nD) (t : Fin cfg0.N) : FVec Ideal S128x128 .f32 := iblk0 V c 1 t

/-- The first operand's block at point t reads, at (p, k), the array at (128 · (t / 16) + p, 128 · (t % 2) + k). -/
theorem xblk_apply (c : Dev nD) (t : Fin cfg0.N) (p k : Fin 128) (r : Fin 1024) (s : Fin 256)
    (hr : r.val = t.val / 16 * 128 + p.val) (hs : s.val = t.val % 2 * 128 + k.val) :
    xblk V c t (ix2 p k) = xarr V c (ix2 r s) := by
  obtain ⟨e0, e1, -, -, -, -⟩ := idx_facts t
  show iblk0 V c 0 t (ix2 p k) = V c main_v1 (ix2 r s)
  unfold iblk0
  rw [View.read_apply]
  show V c main_v1 _ = V c main_v1 _
  congr 1
  funext a
  apply Fin.ext
  match a with
  | ⟨0, _⟩ => show win0_0.index t (0 : Fin 2) * 128 + 1 * p.val = r.val; omega
  | ⟨1, _⟩ => show win0_0.index t (1 : Fin 2) * 128 + 1 * k.val = s.val; omega

/-- The second operand's block at point t reads, at (q, k), the array at (128 · (t / 2 % 8) + q, 128 · (t % 2) + k). -/
theorem yblk_apply (c : Dev nD) (t : Fin cfg0.N) (q k : Fin 128) (r : Fin 1024) (s : Fin 256)
    (hr : r.val = t.val / 2 % 8 * 128 + q.val) (hs : s.val = t.val % 2 * 128 + k.val) :
    yblk V c t (ix2 q k) = yarr V c (ix2 r s) := by
  obtain ⟨-, -, e2, e3, -, -⟩ := idx_facts t
  show iblk0 V c 1 t (ix2 q k) = V c main_v3 (ix2 r s)
  unfold iblk0
  rw [View.read_apply]
  show V c main_v3 _ = V c main_v3 _
  congr 1
  funext a
  apply Fin.ext
  match a with
  | ⟨0, _⟩ => show win0_1.index t (0 : Fin 2) * 128 + 1 * q.val = r.val; omega
  | ⟨1, _⟩ => show win0_1.index t (1 : Fin 2) * 128 + 1 * k.val = s.val; omega

end Region

section Result
variable (V : (c : Dev nD) → (b : Ref sig .tc) → Buf (Elt Ideal) ((c : Thread nD τ).loc b))

/-! ## What the result's staging block holds after a point of the second half -/

/-- After a point t of the second half (t odd) the result's staging block holds, at (p, q), the negated distance between
    row 128 · (t / 16) + p of the first array and row 128 · (t / 2 % 8) + q of the second, accumulated as the two points
    t - 1 and t leave it: zero, plus (zero minus the first half's sum), plus (zero minus the second half's sum). The
    point before, t - 1, is of the first half and resets the block, so nothing earlier is read. -/
theorem outsAt_odd (c : Dev nD) (t : Fin cfg0.N) (h1 : t.val % 2 = 1) (p q : Fin 128) (i j : Fin 1024)
    (hi : i.val = t.val / 16 * 128 + p.val) (hj : j.val = t.val / 2 % 8 * 128 + q.val) :
    outsAt0 V c t.val t.isLt (ix2 p q) = Cert.Spec.sKat (xarr V c) (yarr V c) i j := by
  have hN : cfg0.N = 128 := N_0
  have ht : t.val < 128 := lt_of_lt_of_eq t.isLt hN
  have hB : ¬t.val % 2 = 0 := by omega
  have hs : t.val - 1 < cfg0.N := Nat.lt_of_le_of_lt (Nat.sub_le _ _) t.isLt
  have hA : (⟨t.val - 1, hs⟩ : Fin cfg0.N).val % 2 = 0 := by show (t.val - 1) % 2 = 0; omega
  refine (congrFun (outsAt0_B V c t hB) (ix2 p q)).trans ?_
  refine (congrFun (out_B (F := Ideal) c (grid0.coords t) (ms0_0 t) (hs0_0 t) (ms0_1 t) (hs0_1 t) (ms0_2 t) (hs0_2 t)
    (fun h => hB ((hcond0_0 t).mp h)) (iblk0 V c 0 t) (iblk0 V c 1 t) (outsAt0 V c (t.val - 1) hs)) (ix2 p q)).trans ?_
  refine (pay2_apply (xblk V c t) (yblk V c t) (outsAt0 V c (t.val - 1) hs) p q).trans ?_
  show _ = ((0 : EReal) + ((0 : EReal) - ∑ k : Fin 128, FloatOps.absf (F := Ideal) (φ := .f32)
        (xarr V c (ix2 i (Cert.Spec.col 0 k)) - yarr V c (ix2 j (Cert.Spec.col 0 k)))))
      + ((0 : EReal) - ∑ k : Fin 128, FloatOps.absf (F := Ideal) (φ := .f32)
        (xarr V c (ix2 i (Cert.Spec.col 1 k)) - yarr V c (ix2 j (Cert.Spec.col 1 k))))
  refine congrArg₂ (fun a b : EReal => a + b) ?_ (congrArg (fun z : EReal => (0 : EReal) - z) (Finset.sum_congr rfl fun k _ => ?_))
  · refine (congrFun (outsAt0_A V c ⟨t.val - 1, hs⟩ hA) (ix2 p q)).trans ?_
    refine (congrFun (out_A (F := Ideal) c (grid0.coords ⟨t.val - 1, hs⟩) (ms0_0 ⟨t.val - 1, hs⟩) (hs0_0 ⟨t.val - 1, hs⟩)
      (ms0_1 ⟨t.val - 1, hs⟩) (hs0_1 ⟨t.val - 1, hs⟩) (ms0_2 ⟨t.val - 1, hs⟩) (hs0_2 ⟨t.val - 1, hs⟩)
      ((hcond0_0 ⟨t.val - 1, hs⟩).mpr hA) (iblk0 V c 0 ⟨t.val - 1, hs⟩) (iblk0 V c 1 ⟨t.val - 1, hs⟩)) (ix2 p q)).trans ?_
    refine (pay2_apply (xblk V c ⟨t.val - 1, hs⟩) (yblk V c ⟨t.val - 1, hs⟩) (k0_pay1 (F := Ideal)) p q).trans ?_
    refine congrArg₂ (fun a b : EReal => a + b) (pay1_apply p q) (congrArg (fun z : EReal => (0 : EReal) - z) (Finset.sum_congr rfl fun k _ => ?_))
    exact congrArg₂ (fun a b : EReal => FloatOps.absf (F := Ideal) (φ := .f32) (a - b))
      (xblk_apply V c ⟨t.val - 1, hs⟩ p k i (Cert.Spec.col 0 k) (by show i.val = (t.val - 1) / 16 * 128 + p.val; omega)
        (by show 0 * 128 + k.val = (t.val - 1) % 2 * 128 + k.val; omega))
      (yblk_apply V c ⟨t.val - 1, hs⟩ q k j (Cert.Spec.col 0 k) (by show j.val = (t.val - 1) / 2 % 8 * 128 + q.val; omega)
        (by show 0 * 128 + k.val = (t.val - 1) % 2 * 128 + k.val; omega))
  · exact congrArg₂ (fun a b : EReal => FloatOps.absf (F := Ideal) (φ := .f32) (a - b))
      (xblk_apply V c t p k i (Cert.Spec.col 1 k) hi (by show 1 * 128 + k.val = t.val % 2 * 128 + k.val; omega))
      (yblk_apply V c t q k j (Cert.Spec.col 1 k) hj (by show 1 * 128 + k.val = t.val % 2 * 128 + k.val; omega))

/-! ## From the blocks to the array -/

/-- What a point that writes the result's block back writes is that block of the matrix of negated distances. -/
theorem flushed_eq (c : Dev nD) (t : Fin cfg0.N) (hf : (cfg0.win 2).flush t = true) :
    (dat0 (F := Ideal) V c).flushed 2 t
      = ((cfg0.win 2).blk t).view.read (Elt Ideal) (Cert.Spec.sK (V c main_v1) (V c main_v3)) := by
  have h1 : t.val % 2 = 1 := (flush0_2 t).mp hf
  have hN : cfg0.N = 128 := N_0
  have ht : t.val < 128 := lt_of_lt_of_eq t.isLt hN
  obtain ⟨-, -, -, -, e4, e5⟩ := idx_facts t
  show (cfg0.win 2).cut (grid0.coords t) ((dat0 (F := Ideal) V c).after 2 t) = _
  rw [after0_2]
  funext y
  obtain ⟨p, q, rfl⟩ : ∃ (p q : Fin 128), y = ix2 p q := ⟨y 0, y 1, eq_ix2 y⟩
  rw [View.read_apply]
  show outsAt0 V c t.val t.isLt (ix2 p q) = Cert.Spec.sKat (xarr V c) (yarr V c) _ _
  refine outsAt_odd V c t h1 p q _ _ ?_ ?_
  · show win0_2.index t (0 : Fin 2) * 128 + 1 * p.val = t.val / 16 * 128 + p.val; omega
  · show win0_2.index t (1 : Fin 2) * 128 + 1 * q.val = t.val / 2 % 8 * 128 + q.val; omega

/-- An index of the result array is in point t's block iff each coordinate is in the block's range on its axis. -/
theorem mem_blk (t : Fin cfg0.N) (i : S1024x1024.Idx) :
    i ∈ ((cfg0.win 2).blk t).view.set ↔ ∀ a : Fin 2, win0_2.index t a * S128x128.size a ≤ (i a).val ∧ (i a).val < win0_2.index t a * S128x128.size a + S128x128.size a := by
  show i ∈ ((View.whole main_v4).slice (win0_2.rect t)).set ↔ _
  rw [View.set_slice_whole, Rect.mem_set_unit]
  exact Iff.rfl

/-- Every entry (r, s) of the result array is in the block written back after the point (r / 128, s / 128, 1). -/
theorem cover (i : S1024x1024.Idx) : ∃ t : Fin cfg0.N, (cfg0.win 2).flush t = true ∧ i ∈ ((cfg0.win 2).blk t).view.set := by
  have hN : cfg0.N = 128 := N_0
  have hi0 : (i 0).val < 1024 := (i 0).isLt
  have hi1 : (i 1).val < 1024 := (i 1).isLt
  refine ⟨⟨(i 0).val / 128 * 16 + (i 1).val / 128 * 2 + 1, by rw [hN]; omega⟩, ?_, ?_⟩
  · exact (flush0_2 _).mpr (by show ((i 0).val / 128 * 16 + (i 1).val / 128 * 2 + 1) % 2 = 1; omega)
  · obtain ⟨-, -, -, -, e4, e5⟩ := idx_facts ⟨(i 0).val / 128 * 16 + (i 1).val / 128 * 2 + 1, by rw [hN]; omega⟩
    rw [mem_blk]
    intro a
    match a with
    | ⟨0, _⟩ =>
      show win0_2.index _ (0 : Fin 2) * 128 ≤ (i 0).val ∧ (i 0).val < win0_2.index _ (0 : Fin 2) * 128 + 128
      rw [e4]; show ((i 0).val / 128 * 16 + (i 1).val / 128 * 2 + 1) / 16 * 128 ≤ (i 0).val ∧ (i 0).val < ((i 0).val / 128 * 16 + (i 1).val / 128 * 2 + 1) / 16 * 128 + 128
      omega
    | ⟨1, _⟩ =>
      show win0_2.index _ (1 : Fin 2) * 128 ≤ (i 1).val ∧ (i 1).val < win0_2.index _ (1 : Fin 2) * 128 + 128
      rw [e5]; show ((i 0).val / 128 * 16 + (i 1).val / 128 * 2 + 1) / 2 % 8 * 128 ≤ (i 1).val ∧ (i 1).val < ((i 0).val / 128 * 16 + (i 1).val / 128 * 2 + 1) / 2 % 8 * 128 + 128
      omega

/-- The first region leaves, in its result array, the matrix of negated L1 distances between the rows of the two operand
    arrays as the region finds them, each entry accumulated in the kernel's order. -/
theorem region0_value (c : Dev nD) :
    (dat0 (F := Ideal) V c).arrAt 2 cfg0.N = Cert.Spec.sK (V c main_v1) (V c main_v3) :=
  (dat0 (F := Ideal) V c).arrAt_eq_of_cover 2 (Cert.Spec.sK (V c main_v1) (V c main_v3)) (flushed_eq V c) cover

end Result

end Cert.KernelIdeal.DistValue

end
-- ==== Proof.TailEq.lean ====
/-
  The second kernel call computes the reference's tail.

  The second call loads the whole 1024 × 1024 matrix s and returns one number. With a the softmax of s along
  its rows, b the softmax along its columns and u = a + b - a·b, the number is (∑ u·s) / (∑ u). The kernel
  spells each step with vector operations (a reduction over one axis, a cast to a column or a row, a
  broadcast back to the matrix); the reference spells the same steps with host operations. Over the extended
  reals the two spellings agree for every matrix, with no finiteness needed: a maximum over an axis is a fold
  of max over that axis's coordinates on both sides, a sum over an axis is the sum over that axis's
  coordinates (the host's starts from the zero word, which is 0), a column or row repeated across the matrix
  reads the same entry on both sides, exp and the quotient are the same functions pointwise, and the total
  sum taken as rows-then-the-row-of-sums is the double sum ∑ᵢ ∑ⱼ, which is the sum over all index pairs.

  One lemma per step, each for an arbitrary vector; the last theorem unfolds the payload and rewrites with them.
-/
import proofs.«175988_j8830452760775_1_alg».proof.Proof.Gen.KernelIdeal.Skeleton
import proofs.«175988_j8830452760775_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Idealize.ShloMosaic.PureOps.Reduce

noncomputable section

namespace Cert.KernelIdeal.TailEq

open Idealize.ShloMosaic Idealize.ShloMosaic.ValueIdx Cert.KernelIdeal Cert.KernelIdeal.Gen

/-! ## The identity cast -/

/-- A cast of the matrix to its own shape is the matrix. -/
theorem cast_self_eq (v : FVec Ideal S1024x1024 .f32) :
    shapeCast S1024x1024 v shapeCasts_S1024x1024_S1024x1024 = v :=
  shapeCast_self v _

/-! ## Maxima over one axis -/

/-- The row maxima: both sides are, at row j, the maximum of -∞ with the fold of max from -∞ over the row's
    1024 entries. -/
theorem rowMax_eq (v : FVec Ideal S1024x1024 .f32) :
    maximumf (broadcast S1024 (Scalar.ofBits (F := Ideal) .f32 0xFF800000#32))
        (multiReduction (F := Ideal) .maximumf [1] S1024 v 0xFF800000#32 reduces_S1024x1024_S1024 (.inl rfl) rfl)
      = Cert.Spec.rowMax (F := Ideal) v := by
  funext j
  unfold Cert.Spec.rowMax
  rw [maximumf_apply, maximumf_apply]
  refine congrArg₂ max ?_ ?_
  · rw [broadcast_apply, broadcastInDim_scalar_apply, constant_apply]; rfl
  · refine (Ideal.multiReduction_maximumf_single v _ reduces_S1024x1024_S1024 (.inl rfl) rfl j).trans ?_
    exact (Host.reduce_eq_fold_single (FloatOps.maximumf (F := Ideal) (φ := .f32)) v
      (constant (F := Ideal) Cert.ReferenceIdeal.S_ .f32 0xFF800000#32) Cert.ReferenceIdeal.Gen.reducesTo_S1024x1024_S1024_d1
      reduces_S1024x1024_S1024 Cert.ReferenceIdeal.Gen.h_S_ j).symm

/-- The column maxima, likewise over the 1024 entries of a column. -/
theorem colMax_eq (v : FVec Ideal S1024x1024 .f32) :
    maximumf (broadcast S1024 (Scalar.ofBits (F := Ideal) .f32 0xFF800000#32))
        (multiReduction (F := Ideal) .maximumf [0] S1024 v 0xFF800000#32 reduces_S1024x1024_S1024_2 (.inl rfl) rfl)
      = Cert.Spec.colMax (F := Ideal) v := by
  funext j
  unfold Cert.Spec.colMax
  rw [maximumf_apply, maximumf_apply]
  refine congrArg₂ max ?_ ?_
  · rw [broadcast_apply, broadcastInDim_scalar_apply, constant_apply]; rfl
  · refine (Ideal.multiReduction_maximumf_single v _ reduces_S1024x1024_S1024_2 (.inl rfl) rfl j).trans ?_
    exact (Host.reduce_eq_fold_single (FloatOps.maximumf (F := Ideal) (φ := .f32)) v
      (constant (F := Ideal) Cert.ReferenceIdeal.S_ .f32 0xFF800000#32) Cert.ReferenceIdeal.Gen.reducesTo_S1024x1024_S1024_d0
      reduces_S1024x1024_S1024_2 Cert.ReferenceIdeal.Gen.h_S_ j).symm

/-! ## A vector repeated across the matrix -/

/-- A vector of 1024 numbers cast to a column and broadcast: entry (p, q) is the p-th number on both sides. -/
theorem alongRows_eq (r : FVec Ideal S1024 .f32) :
    broadcastTo S1024x1024 (shapeCast S1024x1 r shapeCasts_S1024_S1024x1) broadcasts_S1024x1_S1024x1024
      = Cert.Spec.alongRows (F := Ideal) r := by
  funext j
  obtain ⟨p, q, rfl⟩ : ∃ (p : Fin 1024) (q : Fin 1024), j = ix2 p q := ⟨j 0, j 1, eq_ix2 j⟩
  have hL : broadcastTo S1024x1024 (shapeCast S1024x1 r shapeCasts_S1024_S1024x1) broadcasts_S1024x1_S1024x1024 (ix2 p q)
      = r (ix1 p) := by
    refine (broadcastTo_apply _ _ (ix2 p q) (ix2 p (0 : Fin 1)) (fun a => ?_)).trans ?_
    · match a with
      | ⟨0, _⟩ => rfl
      | ⟨1, _⟩ => rfl
    · exact shapeCast_apply r _ (ix2 p (0 : Fin 1)) (ix1 p) (by
        rw [Shape.rowMajor_val_two, Shape.rowMajor_val_one]; show p.val = p.val * 1 + 0; omega)
  have hR : Cert.Spec.alongRows (F := Ideal) r (ix2 p q) = r (ix1 p) := by
    unfold Cert.Spec.alongRows
    refine (broadcastInDim_apply _ _ _ (ix2 p q) (ix2 p (0 : Fin 1)) (fun a => ?_)).trans ?_
    · match a with
      | ⟨0, _⟩ => rfl
      | ⟨1, _⟩ => rfl
    · refine broadcastInDim_apply _ _ r (ix2 p (0 : Fin 1)) (ix1 p) (fun a => ?_)
      match a with
      | ⟨0, _⟩ => rfl
  exact hL.trans hR.symm

/-- A vector of 1024 numbers cast to a row and broadcast: entry (p, q) is the q-th number on both sides. -/
theorem alongCols_eq (r : FVec Ideal S1024 .f32) :
    broadcastTo S1024x1024 (shapeCast S1x1024 r shapeCasts_S1024_S1x1024) broadcasts_S1x1024_S1024x1024
      = Cert.Spec.alongCols (F := Ideal) r := by
  funext j
  obtain ⟨p, q, rfl⟩ : ∃ (p : Fin 1024) (q : Fin 1024), j = ix2 p q := ⟨j 0, j 1, eq_ix2 j⟩
  have hL : broadcastTo S1024x1024 (shapeCast S1x1024 r shapeCasts_S1024_S1x1024) broadcasts_S1x1024_S1024x1024 (ix2 p q)
      = r (ix1 q) :=
    (broadcastTo_1b_ab_apply _ _ p q).trans (shapeCast_a_1a_apply r _ (0 : Fin 1) q)
  have hR : Cert.Spec.alongCols (F := Ideal) r (ix2 p q) = r (ix1 q) := by
    unfold Cert.Spec.alongCols
    refine (broadcastInDim_apply _ _ _ (ix2 p q) (ix2 (0 : Fin 1) q) (fun a => ?_)).trans ?_
    · match a with
      | ⟨0, _⟩ => rfl
      | ⟨1, _⟩ => rfl
    · refine broadcastInDim_apply _ _ r (ix2 (0 : Fin 1) q) (ix1 q) (fun a => ?_)
      match a with
      | ⟨0, _⟩ => rfl
  exact hL.trans hR.symm

/-! ## Sums over one axis -/

/-- The row sums: at row j both sides are the sum of the row's 1024 entries (the host's starts from the zero word). -/
theorem rowSum_eq (e : FVec Ideal S1024x1024 .f32) :
    multiReduction (F := Ideal) .add [1] S1024 e 0x00000000#32 reduces_S1024x1024_S1024 (.inl rfl) rfl
      = Host.reduceAdd (F := Ideal) e (constant (F := Ideal) Cert.ReferenceIdeal.S_ .f32 0x00000000#32)
          Cert.ReferenceIdeal.Gen.reducesTo_S1024x1024_S1024_d1 Cert.ReferenceIdeal.Gen.h_S_ := by
  funext j
  refine (Ideal.multiReduction_add_single e _ reduces_S1024x1024_S1024 (.inl rfl) rfl j).trans ?_
  rw [hostReduceAdd_apply,
    Ideal.hostReduceAdd_single Cert.ReferenceIdeal.Gen.reducesTo_S1024x1024_S1024_d1 reduces_S1024x1024_S1024,
    constant_apply, Ideal.ofBits_zero_f32, zero_add]

/-- The column sums, likewise. -/
theorem colSum_eq (e : FVec Ideal S1024x1024 .f32) :
    multiReduction (F := Ideal) .add [0] S1024 e 0x00000000#32 reduces_S1024x1024_S1024_2 (.inl rfl) rfl
      = Host.reduceAdd (F := Ideal) e (constant (F := Ideal) Cert.ReferenceIdeal.S_ .f32 0x00000000#32)
          Cert.ReferenceIdeal.Gen.reducesTo_S1024x1024_S1024_d0 Cert.ReferenceIdeal.Gen.h_S_ := by
  funext j
  refine (Ideal.multiReduction_add_single e _ reduces_S1024x1024_S1024_2 (.inl rfl) rfl j).trans ?_
  rw [hostReduceAdd_apply,
    Ideal.hostReduceAdd_single Cert.ReferenceIdeal.Gen.reducesTo_S1024x1024_S1024_d0 reduces_S1024x1024_S1024_2,
    constant_apply, Ideal.ofBits_zero_f32, zero_add]

/-! ## The pointwise operations -/

/-- The kernel's exp and the host's are the same function of each entry. -/
theorem exp_eq (x : FVec Ideal S1024x1024 .f32) : exp x = Host.exp (F := Ideal) x := rfl

/-- The kernel's quotient and the host's are the same function of each pair of entries. -/
theorem divf_eq (x y : FVec Ideal S1024x1024 .f32) : divf x y = Host.divf (F := Ideal) x y := rfl

/-! ## The total sum -/

/-- The sum of every entry. The kernel sums each row, lays the 1024 row sums out as one row, sums that row and
    reads the one number left: ∑ₖ ∑ₗ w(k, l). The host sums over all index pairs from the zero word, which is
    the same double sum. -/
theorem total_eq (w : FVec Ideal S1024x1024 .f32) :
    extractAt ![0, 0]
        (shapeCast S1x1
          (multiReduction (F := Ideal) .add [1] S1
            (shapeCast S1x1024
              (multiReduction (F := Ideal) .add [1] S1024 w 0x00000000#32 reduces_S1024x1024_S1024 (.inl rfl) rfl)
              shapeCasts_S1024_S1x1024)
            0x00000000#32 reduces_S1x1024_S1 (.inl rfl) rfl)
          shapeCasts_S1_S1x1)
        inpos_S1x1_p0_0
      = Host.reduceAdd (F := Ideal) w (constant (F := Ideal) Cert.ReferenceIdeal.S_ .f32 0x00000000#32)
          Cert.ReferenceIdeal.Gen.reducesTo_S1024x1024_S_d0_1 Cert.ReferenceIdeal.Gen.h_S_ ix0 := by
  refine Eq.trans (b := ∑ k : Fin 1024, ∑ l : Fin 1024, w (ix2 k l)) ?_ ?_
  · unfold extractAt
    refine (shapeCast_apply _ shapeCasts_S1_S1x1 _ (ix1 (0 : Fin 1)) (by
      rw [Shape.rowMajor_val_one, Shape.rowMajor_val_two]; rfl)).trans ?_
    refine (Ideal.multiReduction_add_single _ _ reduces_S1x1024_S1 (.inl rfl) rfl (ix1 (0 : Fin 1))).trans ?_
    refine Finset.sum_congr rfl fun (k : Fin 1024) _ => ?_
    have hk : reduces_S1x1024_S1.lift (ix1 (0 : Fin 1)) k = ix2 (0 : Fin 1) k :=
      funext fun a => by match a with | ⟨0, _⟩ => rfl | ⟨1, _⟩ => rfl
    rw [hk, shapeCast_a_1a_apply]
    refine (Ideal.multiReduction_add_single w _ reduces_S1024x1024_S1024 (.inl rfl) rfl (ix1 k)).trans ?_
    refine Finset.sum_congr rfl fun (l : Fin 1024) _ => ?_
    have hl : reduces_S1024x1024_S1024.lift (ix1 k) l = ix2 k l :=
      funext fun a => by match a with | ⟨0, _⟩ => rfl | ⟨1, _⟩ => rfl
    rw [hl]
  · rw [hostReduceAdd_apply, Ideal.hostReduceAdd_total _ (fun b => b.elim0), constant_apply, Ideal.ofBits_zero_f32,
      zero_add, sum_idx2]

/-! ## The payload -/

/-- The second call's payload is, at every index of its 1 × 1 result, the reference's tail of the loaded matrix. -/
theorem pay1_eq (v : Vec Ideal S1024x1024 .f32) :
    k1_pay1 (F := Ideal) v = fun _ => Cert.Spec.tail (F := Ideal) v Idealize.ShloMosaic.ValueIdx.ix0 := by
  unfold k1_pay1
  dsimp only
  rw [cast_self_eq v]
  rw [total_eq, total_eq]
  simp only [alongRows_eq, alongCols_eq, exp_eq, divf_eq]
  rw [rowMax_eq, colMax_eq, rowSum_eq, colSum_eq]
  unfold Cert.Spec.tail Cert.Spec.union Cert.Spec.rowSoft Cert.Spec.colSoft Cert.Spec.rowExp Cert.Spec.colExp
  funext i
  rw [broadcast_apply, Ideal.scalar_divf_def, hostDivf_apply]

end Cert.KernelIdeal.TailEq

end
-- ==== Proof.KernelValue.lean ====
/-
  The kernel program's result as a function of its two arguments.

  @main transposes both arguments to 1024 × 256, the first pallas_call leaves the negated L1-distance matrix
  (accumulated in two halves) in its output array, the second pallas_call reads that whole matrix and leaves
  the one number (∑ u·s) / (∑ u) in a 1 × 1 array, and a final reshape makes it a scalar.
-/
import proofs.«175988_j8830452760775_1_alg».proof.Proof.KernelRun
import proofs.«175988_j8830452760775_1_alg».proof.Proof.CombValue
import proofs.«175988_j8830452760775_1_alg».proof.Proof.Spec
import proofs.«175988_j8830452760775_1_alg».proof.Proof.DistValue
import proofs.«175988_j8830452760775_1_alg».proof.Proof.TailEq
import Idealize.ShloMosaic.Lib.StableHlo.Run
import Idealize.ShloMosaic.Lib.ValueIdx

noncomputable section

namespace Cert.KernelIdeal.KernelValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- An argument of shape 1 × 256 × 1024 read as 256 × 1024 and transposed to 1024 × 256. -/
abbrev transposed (x : (⟨S1x256x1024, .f32⟩ : BufTy).Contents (Elt Ideal)) : (⟨S1024x256, .f32⟩ : BufTy).Contents (Elt Ideal) :=
  transpose S1024x256 [1, 0] (shapeCast S256x1024 x shapeCasts_S1x256x1024_S256x1024) transposes_S256x1024_S1024x256_1_0

/-- When the first pallas_call is entered its first operand is the first argument, transposed, -/
theorem entry_v1 (c : Dev nD) : V1 m ρ c main_v1 = transposed (m ((c.tc : Thread nD τ).loc main_arg0)) := by
  show StableHlo.after hostOps0 (W0 m ρ c) (Proc.devRef .tc main_v1) = _
  after_results
  rfl

/-- and its second operand the second argument, transposed. -/
theorem entry_v3 (c : Dev nD) : V1 m ρ c main_v3 = transposed (m ((c.tc : Thread nD τ).loc main_arg1)) := by
  show StableHlo.after hostOps0 (W0 m ρ c) (Proc.devRef .tc main_v3) = _
  after_results
  rfl

/-- The negated L1-distance matrix of the two transposed arguments, in the kernel's order of accumulation. -/
abbrev dist (c : Dev nD) : FVec Ideal Cert.ReferenceIdeal.S1024x1024 .f32 :=
  Cert.Spec.sK (transposed (m ((c.tc : Thread nD τ).loc main_arg0))) (transposed (m ((c.tc : Thread nD τ).loc main_arg1)))

/-- The result buffer after the run holds `tail` of that matrix. -/
theorem result_eq (c : Dev nD) :
    W4 m ρ c (Proc.devRef .tc main_v6) = Cert.Spec.tail (F := Ideal) (dist m c) := by
  have h6 : W4 m ρ c (Proc.devRef .tc main_v6)
      = shapeCast S_ (W3 m ρ c (Proc.devRef .tc main_v5)) shapeCasts_S1x1_S_ := by
    show StableHlo.after hostOps2 (W3 m ρ c) (Proc.devRef .tc main_v6) = _
    after_results
    rfl
  have h5 : W3 m ρ c (Proc.devRef .tc main_v5) = (dat1 (V2 m ρ) c).arrAt 1 cfg1.N := W3_arr m ρ c 1
  have h4 : V2 m ρ c main_v4 = (dat0 (V1 m ρ) c).arrAt 2 cfg0.N := W2_arr m ρ c 2
  rw [h6, h5, Cert.KernelIdeal.CombValue.region1_value (V2 m ρ) c, h4,
    Cert.KernelIdeal.DistValue.region0_value (V1 m ρ) c, entry_v1, entry_v3, Cert.KernelIdeal.TailEq.pay1_eq]
  funext i
  exact congrArg (Cert.Spec.tail (F := Ideal) (dist m c)) (eq_ix0 i).symm

/-- The run of the kernel program, its result named. -/
theorem run : θ_run defs (onTc (τ := τ) (main (F := Ideal))) ⟨m, fun _ => 0, ρ⟩ (fun r => ∀ c : Dev nD,
      r.2.mem ((c.tc : Thread nD τ).loc main_v6) = Cert.Spec.tail (F := Ideal) (dist m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (result_eq m ρ c), (h c).2⟩)
    (Cert.KernelIdeal.Named.run_named m ρ)

end Cert.KernelIdeal.KernelValue

end
-- ==== Proof.RefTail.lean ====
/-
  The reference's host program, from its distance matrix on, is the shared second half `Cert.Spec.tail`:
  row softmax, column softmax, their soft union u, and (∑ u·s) / (∑ u). Stage by stage the reference's
  operations after the negation are the operations `tail` is written with, applied to the same matrix.
-/
import proofs.«175988_j8830452760775_1_alg».proof.Proof.Gen.ReferenceIdeal.Read
import proofs.«175988_j8830452760775_1_alg».proof.Proof.Spec

noncomputable section

namespace Cert.ReferenceIdeal.RefTail

open Idealize.ShloMosaic Cert.ReferenceIdeal Cert.ReferenceIdeal.Gen Cert.ReferenceIdeal.Read

variable {F : FTy → Type} [FloatOps F]

/-- The reference's result is `tail` of its negated L1-distance matrix. -/
theorem ref_eq_tail (x0 x1 : (⟨S1x256x1024, .f32⟩ : BufTy).Contents (Elt F)) :
    val_main_v40 (F := F) x0 x1 = Cert.Spec.tail (F := F) (val_main_v11 (F := F) x0 x1) := by
  unfold val_main_v40 val_main_v39 val_main_v38 val_main_v37 val_main_v36 val_main_v35 val_main_v34 val_main_v33
    val_main_v32 val_main_v31 val_main_v30 val_main_v29 val_main_v28 val_main_v27 val_main_v26 val_main_v25 val_main_v24
    val_main_v23 val_main_v22 val_main_v21 val_main_v20 val_main_v19 val_main_v18 val_main_v17 val_main_v16 val_main_v15
    val_main_v14 val_main_v13 val_main_v12 val_main_cst_0 val_main_cst_1 val_main_cst_2 val_main_cst_3 val_main_cst_4
    val_main_cst_5 val_main_cst_6 val_main_cst_7
  generalize val_main_v11 (F := F) x0 x1 = s
  unfold Cert.Spec.tail Cert.Spec.union Cert.Spec.rowSoft Cert.Spec.colSoft Cert.Spec.rowExp Cert.Spec.colExp
    Cert.Spec.rowMax Cert.Spec.colMax Cert.Spec.alongRows Cert.Spec.alongCols
  rfl

end Cert.ReferenceIdeal.RefTail

end
-- ==== Proof.DistEq.lean ====
/-
  The distance matrix, summed in two halves, is the reference's.

  For extended reals f(0), …, f(255) that are all ≥ 0 (absolute values are), the kernel's order of accumulation
  (0 + (0 - ∑ first half)) + (0 - ∑ second half) equals the reference's -(0 + ∑ all): a sum over 256 = 128 + 128
  coordinates splits into its halves, and negation distributes over a sum of two extended reals neither of which
  is -∞. No finiteness of the inputs is needed. Then both programs read the same entries: row i of the first
  array and row j of the second, transposed from the arguments by the same two host operations.
-/
import proofs.«175988_j8830452760775_1_alg».proof.Proof.Gen.ReferenceIdeal.Read
import proofs.«175988_j8830452760775_1_alg».proof.Proof.Spec
import Idealize.ShloMosaic.PureOps.Ideal.Laws

noncomputable section

namespace Cert.ReferenceIdeal.DistEq

open Idealize.ShloMosaic Idealize.ShloMosaic.ValueIdx Cert.ReferenceIdeal Cert.ReferenceIdeal.Gen Cert.ReferenceIdeal.Read

/-- An absolute value on the extended reals, max z (-z), is nonnegative. -/
theorem abs_nonneg (z : EReal) : 0 ≤ max z (-z) := by
  rcases le_total 0 z with h | h
  · exact le_max_of_le_left h
  · exact le_max_of_le_right (EReal.neg_nonneg.mpr h)

/-- A nonnegative extended real is not -∞. -/
theorem ne_bot_of_nonneg {a : EReal} (h : 0 ≤ a) : a ≠ ⊥ := fun e => by
  rw [e] at h; exact absurd h (not_le.mpr EReal.bot_lt_zero)

/-- Two halves, each subtracted from zero and added onto zero, are the negated whole. -/
theorem halves_eq_neg_sum (f : Fin 256 → EReal) (hf : ∀ k, 0 ≤ f k) :
    ((0 : EReal) + ((0 : EReal) - ∑ k : Fin 128, f (Cert.Spec.col 0 k))) + ((0 : EReal) - ∑ k : Fin 128, f (Cert.Spec.col 1 k))
      = -((0 : EReal) + ∑ k : Fin 256, f k) := by
  have hsplit : ∑ k : Fin 256, f k = ∑ k : Fin 128, f (Cert.Spec.col 0 k) + ∑ k : Fin 128, f (Cert.Spec.col 1 k) := by
    have h := Fin.sum_univ_add (M := EReal) (a := 128) (b := 128) f
    refine h.trans ?_
    refine congrArg₂ (· + ·) (Finset.sum_congr rfl fun k _ => congrArg f (Fin.ext ?_))
      (Finset.sum_congr rfl fun k _ => congrArg f (Fin.ext ?_))
    · show k.val = 0 * 128 + k.val; omega
    · show 128 + k.val = 1 * 128 + k.val; omega
  have hA : (0 : EReal) ≤ ∑ k : Fin 128, f (Cert.Spec.col 0 k) := Finset.sum_nonneg fun k _ => hf _
  have hB : (0 : EReal) ≤ ∑ k : Fin 128, f (Cert.Spec.col 1 k) := Finset.sum_nonneg fun k _ => hf _
  rw [hsplit, zero_add, zero_add, zero_sub, zero_sub,
    EReal.neg_add (Or.inl (ne_bot_of_nonneg hA)) (Or.inr (ne_bot_of_nonneg hB)), sub_eq_add_neg]

/-- The kernel's order of accumulation, over the reference's transposed arrays, is the reference's negated
    L1-distance matrix: entry (i, j) of both sums |x(i, k) - y(j, k)| over the 256 coordinates k. -/
theorem sK_eq_ref (x0 x1 : (⟨S1x256x1024, .f32⟩ : BufTy).Contents (Elt Ideal)) :
    Cert.Spec.sK (val_main_v1 (F := Ideal) x0) (val_main_v3 (F := Ideal) x1) = val_main_v11 (F := Ideal) x0 x1 := by
  funext i
  -- the reference's entry, read operation by operation down to the two transposed arrays
  have hterm : ∀ k : Fin 256, val_main_v9 (F := Ideal) x0 x1 (idx_main_v10 i k)
      = max (val_main_v1 (F := Ideal) x0 (ix2 (i 0) k) - val_main_v3 (F := Ideal) x1 (ix2 (i 1) k))
          (-(val_main_v1 (F := Ideal) x0 (ix2 (i 0) k) - val_main_v3 (F := Ideal) x1 (ix2 (i 1) k))) := by
    intro k
    have e1 : idx_main_v4 (idx_main_v6 (idx_main_v10 i k)) = ix2 (i 0) k :=
      funext fun a => Fin.ext (by match a with | ⟨0, _⟩ => rfl | ⟨1, _⟩ => rfl)
    have e2 : idx_main_v5 (idx_main_v7 (idx_main_v10 i k)) = ix2 (i 1) k :=
      funext fun a => Fin.ext (by match a with | ⟨0, _⟩ => rfl | ⟨1, _⟩ => rfl)
    rw [val_main_v9_apply, val_main_v8_apply, val_main_v6_apply, val_main_v7_apply, val_main_v4_apply, val_main_v5_apply,
      e1, e2]
    rfl
  rw [val_main_v11_apply, val_main_v10_apply, Finset.sum_congr rfl fun k _ => hterm k]
  have h0 : (val_main_cst (F := Ideal)) (Shape.Idx.first h_S_) = (0 : EReal) := Ideal.ofBits_zero_f32
  rw [h0]
  show Cert.Spec.sKat _ _ (i 0) (i 1) = -(_ : EReal)
  unfold Cert.Spec.sKat Cert.Spec.half
  exact halves_eq_neg_sum
    (fun k => max (val_main_v1 (F := Ideal) x0 (ix2 (i 0) k) - val_main_v3 (F := Ideal) x1 (ix2 (i 1) k))
      (-(val_main_v1 (F := Ideal) x0 (ix2 (i 0) k) - val_main_v3 (F := Ideal) x1 (ix2 (i 1) k))))
    (fun k => abs_nonneg _)

end Cert.ReferenceIdeal.DistEq

end
-- ==== Proof.lean ====
/-
  The certificate of the two-kernel L1-distance / softmax-alignment program against its jnp reference.

  Both programs compute, from two 1 × 256 × 1024 arrays transposed to 1024 × 256, the matrix of negated L1
  distances s(i, j) = -∑ₖ |x(i, k) - y(j, k)| and then one number from it: with a the softmax of s along rows,
  b the softmax of s along columns and u = a + b - a·b, the number (∑ u·s) / (∑ u).

  The first kernel tiles the matrix 128 × 128 and accumulates the 256 coordinates in two halves of 128 onto a
  zero start, each half negated by subtraction from zero; the reference sums all 256 and negates once. Absolute
  values are nonnegative, so no sum is -∞ and negation distributes over the two halves: the two matrices are
  equal entry by entry on the extended reals, for all inputs (the finiteness precondition is not used). The
  second kernel applies to the whole matrix the operations the reference applies (lane reductions for host
  reductions, casts and broadcasts for broadcasts, a sum of row sums for the total sum), so both results are one
  function `Cert.Spec.tail` of equal matrices.

  The three frames: the two kernel programs' are generated whole; the reference has no kernel, and its frame is its
  generated run with the result dropped. The ideal pass rewrote nothing, so `preserves` is trivial.
-/
import proofs.«175988_j8830452760775_1_alg».proof.Defs
import proofs.«175988_j8830452760775_1_alg».proof.Proof.Gen.Kernel
import proofs.«175988_j8830452760775_1_alg».proof.Proof.Gen.Kernel.Skeleton
import proofs.«175988_j8830452760775_1_alg».proof.Proof.Gen.Kernel.Launch
import proofs.«175988_j8830452760775_1_alg».proof.Proof.Gen.Kernel.Points
import proofs.«175988_j8830452760775_1_alg».proof.Proof.Gen.Kernel.Frame
import proofs.«175988_j8830452760775_1_alg».proof.Proof.Gen.KernelIdeal
import proofs.«175988_j8830452760775_1_alg».proof.Proof.Gen.KernelIdeal.Skeleton
import proofs.«175988_j8830452760775_1_alg».proof.Proof.Gen.KernelIdeal.Launch
import proofs.«175988_j8830452760775_1_alg».proof.Proof.Gen.KernelIdeal.Points
import proofs.«175988_j8830452760775_1_alg».proof.Proof.Gen.KernelIdeal.Frame
import proofs.«175988_j8830452760775_1_alg».proof.Proof.Gen.ReferenceIdeal
import proofs.«175988_j8830452760775_1_alg».proof.Proof.Gen.Pre_finite_inputs
import proofs.«175988_j8830452760775_1_alg».proof.Proof.Gen.ReferenceIdeal.Run
import proofs.«175988_j8830452760775_1_alg».proof.Proof.Gen.ReferenceIdeal.Read
import proofs.«175988_j8830452760775_1_alg».proof.Proof.KernelValue
import proofs.«175988_j8830452760775_1_alg».proof.Proof.RefTail
import proofs.«175988_j8830452760775_1_alg».proof.Proof.DistEq
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at `tail` of the distance matrix of the transposed arguments: the kernel's run
    by its two regions' values, the reference's by its generated run, its second half being `tail` and its
    distance matrix the kernel's two-half accumulation. -/
theorem algebraic : Cert.algebraic_KernelIdeal_ReferenceIdeal := by
  intro m ρ m' ρ' _ hagree
  refine ⟨fun c => Cert.Spec.tail (F := Ideal) (Cert.KernelIdeal.KernelValue.dist m c),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, Cert.ReferenceIdeal.RefTail.ref_eq_tail,
    ← Cert.ReferenceIdeal.DistEq.sK_eq_ref, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
